-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x2048 : Shape := ⟨3, ![32, 512, 2048]⟩
abbrev S32x768x2048 : Shape := ⟨3, ![32, 768, 2048]⟩
abbrev S32x2048x768 : Shape := ⟨3, ![32, 2048, 768]⟩
abbrev S_ : Shape := ⟨0, ![]⟩

class Facts : Prop where
  bcast_S_S32x512x2048 : S_.BroadcastsInDim S32x512x2048 (![] : Fin 0 → Fin S32x512x2048.rank)
  reducesTo_S32x512x2048_S_d0_1_2 : S32x512x2048.ReducesTo [0, 1, 2] S_
  h_S_ : 0 < S_.numel
  bcast_S_S32x768x2048 : S_.BroadcastsInDim S32x768x2048 (![] : Fin 0 → Fin S32x768x2048.rank)
  reducesTo_S32x768x2048_S_d0_1_2 : S32x768x2048.ReducesTo [0, 1, 2] S_
  bcast_S_S32x2048x768 : S_.BroadcastsInDim S32x2048x768 (![] : Fin 0 → Fin S32x2048x768.rank)
  reducesTo_S32x2048x768_S_d0_1_2 : S32x2048x768.ReducesTo [0, 1, 2] S_

variable [Facts]

def fn_part1 {F : FTy → Type} [FloatOps F] (main_v13 : IVec S_ 1) (main_v16 : IVec S32x2048x768 1) : IVec S_ 1 :=
  let main_c_5 : IVec S_ 1 := constantI S_ 1 1#1
  let main_v17 : IVec S_ 1 := (fun x v => Host.reduce IntOp.andi x v reducesTo_S32x2048x768_S_d0_1_2 h_S_) main_v16 main_c_5
  let main_v18 : IVec S_ 1 := andi main_v13 main_v17
  main_v18

def fn {F : FTy → Type} [FloatOps F] (main_arg0 : FVec F S32x512x2048 .f32) (main_arg1 : FVec F S32x768x2048 .f32) (main_arg2 : FVec F S32x768x2048 .f32) (main_arg3 : FVec F S32x2048x768 .f32) : IVec S_ 1 :=
  let main_v0 : FVec F S32x512x2048 .f32 := Host.absf main_arg0
  let main_cst : FVec F S_ .f32 := constant S_ .f32 0x7F800000#32
  let main_v1 : FVec F S32x512x2048 .f32 := broadcastInDim S32x512x2048 ![] bcast_S_S32x512x2048 main_cst
  let main_v2 : IVec S32x512x2048 1 := cmpf .olt main_v0 main_v1
  let main_c : IVec S_ 1 := constantI S_ 1 1#1
  let main_v3 : IVec S_ 1 := (fun x v => Host.reduce IntOp.andi x v reducesTo_S32x512x2048_S_d0_1_2 h_S_) main_v2 main_c
  let main_v4 : FVec F S32x768x2048 .f32 := Host.absf main_arg1
  let main_cst_0 : FVec F S_ .f32 := constant S_ .f32 0x7F800000#32
  let main_v5 : FVec F S32x768x2048 .f32 := broadcastInDim S32x768x2048 ![] bcast_S_S32x768x2048 main_cst_0
  let main_v6 : IVec S32x768x2048 1 := cmpf .olt main_v4 main_v5
  let main_c_1 : IVec S_ 1 := constantI S_ 1 1#1
  let main_v7 : IVec S_ 1 := (fun x v => Host.reduce IntOp.andi x v reducesTo_S32x768x2048_S_d0_1_2 h_S_) main_v6 main_c_1
  let main_v8 : IVec S_ 1 := andi main_v3 main_v7
  let main_v9 : FVec F S32x768x2048 .f32 := Host.absf main_arg2
  let main_cst_2 : FVec F S_ .f32 := constant S_ .f32 0x7F800000#32
  let main_v10 : FVec F S32x768x2048 .f32 := broadcastInDim S32x768x2048 ![] bcast_S_S32x768x2048 main_cst_2
  let main_v11 : IVec S32x768x2048 1 := cmpf .olt main_v9 main_v10
  let main_c_3 : IVec S_ 1 := constantI S_ 1 1#1
  let main_v12 : IVec S_ 1 := (fun x v => Host.reduce IntOp.andi x v reducesTo_S32x768x2048_S_d0_1_2 h_S_) main_v11 main_c_3
  let main_v13 : IVec S_ 1 := andi main_v8 main_v12
  let main_v14 : FVec F S32x2048x768 .f32 := Host.absf main_arg3
  let main_cst_4 : FVec F S_ .f32 := constant S_ .f32 0x7F800000#32
  let main_v15 : FVec F S32x2048x768 .f32 := broadcastInDim S32x2048x768 ![] bcast_S_S32x2048x768 main_cst_4
  let main_v16 : IVec S32x2048x768 1 := cmpf .olt main_v14 main_v15
  fn_part1 (F := F) main_v13 main_v16
-- ==== Kernel.lean ====
abbrev S32x512x2048 : Shape := ⟨3, ![32, 512, 2048]⟩
abbrev S32x768x2048 : Shape := ⟨3, ![32, 768, 2048]⟩
abbrev S32x2048x768 : Shape := ⟨3, ![32, 2048, 768]⟩
abbrev S1x128x2048 : Shape := ⟨3, ![1, 128, 2048]⟩
abbrev S1x768x2048 : Shape := ⟨3, ![1, 768, 2048]⟩
abbrev S1x2048x768 : Shape := ⟨3, ![1, 2048, 768]⟩
abbrev S128x2048 : Shape := ⟨2, ![128, 2048]⟩
abbrev S768x2048 : Shape := ⟨2, ![768, 2048]⟩
abbrev S128x768 : Shape := ⟨2, ![128, 768]⟩
abbrev S2048x768 : Shape := ⟨2, ![2048, 768]⟩
abbrev S16384x2048 : Shape := ⟨2, ![16384, 2048]⟩

abbrev nBuf : Space → Nat
  | .hbm => 6
  | .vmem => 7
  | .smem => 0
  | _ => 0

abbrev bufTy : (tb : Table) → Fin (tcTables nBuf tb) → BufTy
  | .hbm, ⟨0, _⟩ => ⟨S32x512x2048, .f32⟩
  | .hbm, ⟨1, _⟩ => ⟨S32x768x2048, .f32⟩
  | .hbm, ⟨2, _⟩ => ⟨S32x768x2048, .f32⟩
  | .hbm, ⟨3, _⟩ => ⟨S32x2048x768, .f32⟩
  | .hbm, ⟨4, _⟩ => ⟨S32x512x2048, .f32⟩
  | .hbm, ⟨5, _⟩ => ⟨S16384x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x768x2048, .f32⟩
  | .local _ .vmem, ⟨3, _⟩ => ⟨S1x768x2048, .f32⟩
  | .local _ .vmem, ⟨4, _⟩ => ⟨S1x2048x768, .f32⟩
  | .local _ .vmem, ⟨5, _⟩ => ⟨S1x128x2048, .f32⟩
  | .local _ .vmem, ⟨6, _⟩ => ⟨S1x128x2048, .f32⟩
  | _, _ => ⟨S32x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x768x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  bitsLt_bf16_f32 : FTy.bits .bf16 < FTy.bits .f32
  inb_S1x768x2048_S1x768x2048_0_0_0 : ∀ a, (![0, 0, 0] : Fin 3 → Nat) a + S1x768x2048.size a ≤ S1x768x2048.size a
  h_S1x768x2048 : 0 < S1x768x2048.numel
  shapeCasts_S1x768x2048_S768x2048 : S1x768x2048.ShapeCasts S768x2048
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  shapeCasts_S128x2048_S1x128x2048 : S128x2048.ShapeCasts S1x128x2048
  shapeCasts_S32x512x2048_S16384x2048 : S32x512x2048.ShapeCasts S16384x2048
  dot_S128x2048_S768x2048_S128x768_1_1_0_0_n_n_wf : DotDims.WF S128x2048 S768x2048 S128x768 [1] [1] [0] [0] [] []
  dot_S128x768_S2048x768_S128x2048_1_1_0_0_n_n_wf : DotDims.WF S128x768 S2048x768 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S32x512x2048.size a
  hwx0_0 : ∀ i : grid0.Coords, EltTy.bits .f32 = 32 ∨ (Rect.block (s := S32x512x2048) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768x2048.size a ≤ S32x768x2048.size a
  hwx0_1 : ∀ i : grid0.Coords, EltTy.bits .f32 = 32 ∨ (Rect.block (s := S32x768x2048) S1x768x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768x2048.size a ≤ S32x768x2048.size a
  hwx0_2 : ∀ i : grid0.Coords, EltTy.bits .f32 = 32 ∨ (Rect.block (s := S32x768x2048) S1x768x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048x768.size a ≤ S32x2048x768.size a
  hwx0_3 : ∀ i : grid0.Coords, EltTy.bits .f32 = 32 ∨ (Rect.block (s := S32x2048x768) S1x2048x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S32x512x2048.size a
  hwx0_4 : ∀ i : grid0.Coords, EltTy.bits .f32 = 32 ∨ (Rect.block (s := S32x512x2048) S1x128x2048.size (cc0_transform_4 i) (hinb0_4 i)).WholeWords (EltTy.packing .f32)

variable [Facts₀]

def dot_S128x2048_S768x2048_S128x768_1_1_0_0_n_n : DotDims S128x2048 S768x2048 S128x768 where
  lhsContracting := [1]
  rhsContracting := [1]
  lhsNonContracting := [0]
  rhsNonContracting := [0]
  lhsBatch := []
  rhsBatch := []
  wf := dot_S128x2048_S768x2048_S128x768_1_1_0_0_n_n_wf
def dot_S128x768_S2048x768_S128x2048_1_1_0_0_n_n : DotDims S128x768 S2048x768 S128x2048 where
  lhsContracting := [1]
  rhsContracting := [1]
  lhsNonContracting := [0]
  rhsNonContracting := [0]
  lhsBatch := []
  rhsBatch := []
  wf := dot_S128x768_S2048x768_S128x2048_1_1_0_0_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x768x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x768x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x2048 : Shape := ⟨3, ![32, 512, 2048]⟩
abbrev S32x768x2048 : Shape := ⟨3, ![32, 768, 2048]⟩
abbrev S32x2048x768 : Shape := ⟨3, ![32, 2048, 768]⟩
abbrev S32x512x768 : Shape := ⟨3, ![32, 512, 768]⟩
abbrev S_ : Shape := ⟨0, ![]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32x512x2048, .f32⟩
  | .hbm, ⟨1, _⟩ => ⟨S32x768x2048, .f32⟩
  | .hbm, ⟨2, _⟩ => ⟨S32x768x2048, .f32⟩
  | .hbm, ⟨3, _⟩ => ⟨S32x2048x768, .f32⟩
  | .hbm, ⟨4, _⟩ => ⟨S32x512x768, .f32⟩
  | .hbm, ⟨5, _⟩ => ⟨S32x512x768, .f32⟩
  | .hbm, ⟨6, _⟩ => ⟨S32x512x768, .f32⟩
  | .hbm, ⟨7, _⟩ => ⟨S32x512x768, .f32⟩
  | .hbm, ⟨8, _⟩ => ⟨S_, .f32⟩
  | .hbm, ⟨9, _⟩ => ⟨S32x512x768, .f32⟩
  | .hbm, ⟨10, _⟩ => ⟨S32x512x768, .f32⟩
  | .hbm, ⟨11, _⟩ => ⟨S_, .f32⟩
  | .hbm, ⟨12, _⟩ => ⟨S32x512x768, .f32⟩
  | .hbm, ⟨13, _⟩ => ⟨S32x512x768, .f32⟩
  | .hbm, ⟨14, _⟩ => ⟨S32x512x768, .f32⟩
  | .hbm, ⟨15, _⟩ => ⟨S32x512x768, .f32⟩
  | .hbm, ⟨16, _⟩ => ⟨S32x512x2048, .f32⟩
  | .hbm, ⟨17, _⟩ => ⟨S16384x2048, .f32⟩
  | _, _ => ⟨S32x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]

class Facts₀ : Prop where
  bcast_S_S32x512x768 : S_.BroadcastsInDim S32x512x768 (![] : Fin 0 → Fin S32x512x768.rank)
  shapeCasts_S32x512x2048_S16384x2048 : S32x512x2048.ShapeCasts S16384x2048
  dot_S32x512x2048_S32x768x2048_S32x512x768_2_2_1_1_0_0_wf : DotDims.WF S32x512x2048 S32x768x2048 S32x512x768 [2] [2] [1] [1] [0] [0]
  dot_S32x512x768_S32x2048x768_S32x512x2048_2_2_1_1_0_0_wf : DotDims.WF S32x512x768 S32x2048x768 S32x512x2048 [2] [2] [1] [1] [0] [0]

variable [Facts₀]

def dot_S32x512x2048_S32x768x2048_S32x512x768_2_2_1_1_0_0 : DotDims S32x512x2048 S32x768x2048 S32x512x768 where
  lhsContracting := [2]
  rhsContracting := [2]
  lhsNonContracting := [1]
  rhsNonContracting := [1]
  lhsBatch := [0]
  rhsBatch := [0]
  wf := dot_S32x512x2048_S32x768x2048_S32x512x768_2_2_1_1_0_0_wf
def dot_S32x512x768_S32x2048x768_S32x512x2048_2_2_1_1_0_0 : DotDims S32x512x768 S32x2048x768 S32x512x2048 where
  lhsContracting := [2]
  rhsContracting := [2]
  lhsNonContracting := [1]
  rhsNonContracting := [1]
  lhsBatch := [0]
  rhsBatch := [0]
  wf := dot_S32x512x768_S32x2048x768_S32x512x2048_2_2_1_1_0_0_wf

class Facts : Prop extends Facts₀ where

variable [Facts]
-- ==== Proof.SwiGLU.lean ====
/-
  Per-expert SwiGLU feed-forward, as one function of the four argument arrays.

  For expert e, token row t and output feature q the result is
      out[e, t, q] = Σ_i  hid[e, t, i] · down[e, q, i]
  with  hid[e, t, i] = (g · logistic g) · u,   g = Σ_h x[e, t, h] · gate[e, i, h],   u = Σ_h x[e, t, h] · up[e, i, h],
  all sums and products taken on the extended reals.  Both programs compute exactly these sums, term for term, so no
  rearrangement law (and hence no finiteness) is needed to join them: only that `logistic g` is `1 / (1 + e^(-g))`.
-/
import Idealize.ShloMosaic.PureOps.Ideal
import Idealize.ShloMosaic.Lib.ValueIdx
import Idealize.ShloMosaic.Lib.IdealHost

noncomputable section

namespace Cert.SwiGLU

open Idealize.ShloMosaic Idealize.ShloMosaic.ValueIdx

/-- Token activations, [expert, token, hidden]. -/
abbrev Tokens := FVec Ideal (⟨3, ![32, 512, 2048]⟩ : Shape) .f32
/-- A gate or up projection matrix per expert, [expert, intermediate, hidden]. -/
abbrev InProj := FVec Ideal (⟨3, ![32, 768, 2048]⟩ : Shape) .f32
/-- The down projection matrix per expert, [expert, hidden, intermediate]. -/
abbrev OutProj := FVec Ideal (⟨3, ![32, 2048, 768]⟩ : Shape) .f32

/-- Token row (e, t) against row i of expert e's matrix w: the contraction over the hidden axis. -/
def proj (x : Tokens) (w : InProj) (e : Fin 32) (t : Fin 512) (i : Fin 768) : EReal :=
  ∑ h : Fin 2048, x (ix3 e t h) * w (ix3 e i h)

/-- silu(g) · u at the extended reals, with silu(g) = g · logistic g. -/
def gated (g u : EReal) : EReal := (g * Ideal.logistic g) * u

/-- The intermediate activation hid[e, t, i]. -/
def hid (x : Tokens) (gw uw : InProj) (e : Fin 32) (t : Fin 512) (i : Fin 768) : EReal :=
  gated (proj x gw e t i) (proj x uw e t i)

/-- The expert output out[e, t, q]: the contraction of hid[e, t, ·] with row q of expert e's down matrix. -/
def expertOut (x : Tokens) (gw uw : InProj) (dw : OutProj) : Tokens :=
  fun j => ∑ i : Fin 768, hid x gw uw (j 0) (j 1) i * dw (ix3 (j 0) (j 2) i)

/-- The reference's expansion of the sigmoid on the host, `1 / (1 + exp (-g))` with the literal one spelt as its f32 word, is
    `logistic g`; so the host's silu(g) · u is `gated g u`. -/
theorem host_gated (g u : EReal) :
    FloatOps.mulf (F := Ideal) (φ := .f32)
      (FloatOps.mulf (F := Ideal) (φ := .f32) g
        (FloatOps.hostDivf (F := Ideal) (φ := .f32) (Ideal.ofBits .f32 0x3F800000#32)
          (FloatOps.addf (F := Ideal) (φ := .f32) (Ideal.ofBits .f32 0x3F800000#32)
            (FloatOps.hostUnary (F := Ideal) (φ := .f32) .exp (FloatOps.hostNegf (F := Ideal) (φ := .f32) g))))) u
      = gated g u := by
  rw [Ideal.ofBits_one_f32]
  rfl

/-- The kernel's `g · logistic g · u`, in the kernel's own operations, is `gated g u`. -/
theorem kernel_gated (g u : EReal) :
    FloatOps.mulf (F := Ideal) (φ := .f32)
      (FloatOps.mulf (F := Ideal) (φ := .f32) g (FloatOps.logistic (F := Ideal) (φ := .f32) g)) u = gated g u := rfl

end Cert.SwiGLU

end
-- ==== Proof.RefExperts.lean ====
/-
  The reference computes the expert output.

  Its @main is two batched contractions over the hidden axis (gate and up), the sigmoid spelt as
  1 / (1 + exp (-g)), two products, one batched contraction over the intermediate axis, and a reshape.  Read at an index,
  the array before the reshape is `expertOut` of the four argument arrays: each contraction is the sum `proj` / the
  outer sum of `expertOut` term for term, and the sigmoid is `logistic`.
-/
import proofs.«122027_j75892072120692_1_alg».proof.Proof.Gen.ReferenceIdeal.Read
import proofs.«122027_j75892072120692_1_alg».proof.Proof.SwiGLU

noncomputable section

namespace Cert.RefExperts

open Idealize.ShloMosaic Idealize.ShloMosaic.ValueIdx Cert.ReferenceIdeal Cert.ReferenceIdeal.Read Cert.SwiGLU

/-- Token row of output element j, hidden position k: the left operand's index in the gate / up contraction taken at
    the left operand's index (j, i) of the down contraction. -/
theorem tok_idx0 (j : S32x512x2048.Idx) (i : Fin 768) (k : Fin 2048) :
    lidx_main_v0 (lidx_main_v4 j i) k = ix3 (j 0) (j 1) k :=
  funext fun a => match a with | ⟨0, _⟩ => rfl | ⟨1, _⟩ => rfl | ⟨2, _⟩ => rfl
theorem tok_idx1 (j : S32x512x2048.Idx) (i : Fin 768) (k : Fin 2048) :
    lidx_main_v1 (lidx_main_v4 j i) k = ix3 (j 0) (j 1) k :=
  funext fun a => match a with | ⟨0, _⟩ => rfl | ⟨1, _⟩ => rfl | ⟨2, _⟩ => rfl
/-- Row i of the expert's gate / up matrix, hidden position k. -/
theorem w_idx0 (j : S32x512x2048.Idx) (i : Fin 768) (k : Fin 2048) :
    ridx_main_v0 (lidx_main_v4 j i) k = ix3 (j 0) i k :=
  funext fun a => match a with | ⟨0, _⟩ => rfl | ⟨1, _⟩ => rfl | ⟨2, _⟩ => rfl
theorem w_idx1 (j : S32x512x2048.Idx) (i : Fin 768) (k : Fin 2048) :
    ridx_main_v1 (lidx_main_v4 j i) k = ix3 (j 0) i k :=
  funext fun a => match a with | ⟨0, _⟩ => rfl | ⟨1, _⟩ => rfl | ⟨2, _⟩ => rfl
/-- Row (j 2) of the expert's down matrix, intermediate position i. -/
theorem d_idx (j : S32x512x2048.Idx) (i : Fin 768) : ridx_main_v4 j i = ix3 (j 0) (j 2) i :=
  funext fun a => match a with | ⟨0, _⟩ => rfl | ⟨1, _⟩ => rfl | ⟨2, _⟩ => rfl

/-- The gate contraction at (e, t, i) is `proj x gw`. -/
theorem gate_apply (x : Tokens) (gw : InProj) (j : S32x512x2048.Idx) (i : Fin 768) :
    val_main_v0 (F := Ideal) x gw (lidx_main_v4 j i) = proj x gw (j 0) (j 1) i := by
  rw [val_main_v0_apply]
  exact Finset.sum_congr rfl fun k _ => by rw [tok_idx0, w_idx0]; rfl
/-- The up contraction at (e, t, i) is `proj x uw`. -/
theorem up_apply (x : Tokens) (uw : InProj) (j : S32x512x2048.Idx) (i : Fin 768) :
    val_main_v1 (F := Ideal) x uw (lidx_main_v4 j i) = proj x uw (j 0) (j 1) i := by
  rw [val_main_v1_apply]
  exact Finset.sum_congr rfl fun k _ => by rw [tok_idx1, w_idx1]; rfl

/-- silu(gate) · up at (e, t, i) is `hid`. -/
theorem hid_apply (x : Tokens) (gw uw : InProj) (j : S32x512x2048.Idx) (i : Fin 768) :
    val_main_v3 (F := Ideal) x gw uw (lidx_main_v4 j i) = hid x gw uw (j 0) (j 1) i := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, gate_apply, up_apply]
  exact host_gated _ _

/-- The array the reference reshapes is the expert output. -/
theorem stage_eq (x : Tokens) (gw uw : InProj) (dw : OutProj) :
    val_main_v4 (F := Ideal) x gw uw dw = expertOut x gw uw dw := by
  funext j
  rw [val_main_v4_apply]
  exact Finset.sum_congr rfl fun i _ => by rw [hid_apply, d_idx]; rfl

end Cert.RefExperts

end
-- ==== Proof.ExpertTile.lean ====
/-
  One grid point's work, read at an index.

  The body loads a 128-row tile of one expert's tokens and that expert's three matrices whole, forms the gate and up
  products (contractions over the hidden axis, into a zero accumulator), multiplies g · logistic g · u, contracts the
  result with the down matrix over the intermediate axis, and stores the 128 × 2048 tile.  Format changes are the
  identity on the extended reals, and the leading unit axis of every block is dropped or added by a shape cast.  So the
  stored tile at (p, q) is  Σ_i gated (Σ_h x[p, h] · gate[i, h]) (Σ_h x[p, h] · up[i, h]) · down[q, i].
-/
import proofs.«122027_j75892072120692_1_alg».proof.Proof.Gen.KernelIdeal.Skeleton
import proofs.«122027_j75892072120692_1_alg».proof.Proof.SwiGLU
import Idealize.ShloMosaic.Lib.Pipeline.Value
import Idealize.ShloMosaic.Lib.ValueIdx
import Idealize.ShloMosaic.Lib.ValueLayout
import Idealize.ShloMosaic.PureOps.Ideal.Laws

noncomputable section

namespace Cert.ExpertTile

open Idealize.ShloMosaic Idealize.ShloMosaic.ValueIdx Cert.KernelIdeal Cert.KernelIdeal.Gen Cert.SwiGLU

/-! ## The two contractions' operand indices, axis by axis -/

/-- Token tile × matrix rows over the hidden axis: the left operand's row is the result's row. -/
theorem in_lhs_0 (j : S128x768.Idx) (q : dot_S128x2048_S768x2048_S128x768_1_1_0_0_n_n.contr.Idx) :
    (dot_S128x2048_S768x2048_S128x768_1_1_0_0_n_n.lhsIdx j q 0).val = (j 0).val := by
  unfold DotDims.lhsIdx
  rw [dif_neg (show ¬(0 : Fin S128x2048.rank) ∈ dot_S128x2048_S768x2048_S128x768_1_1_0_0_n_n.lhsBatch by decide), dif_pos (show (0 : Fin S128x2048.rank) ∈ dot_S128x2048_S768x2048_S128x768_1_1_0_0_n_n.lhsNonContracting by decide)]
  rfl
/-- Its column is the contraction position. -/
theorem in_lhs_1 (j : S128x768.Idx) (q : dot_S128x2048_S768x2048_S128x768_1_1_0_0_n_n.contr.Idx) :
    (dot_S128x2048_S768x2048_S128x768_1_1_0_0_n_n.lhsIdx j q 1).val = (q ⟨0, by decide⟩).val :=
  dot_S128x2048_S768x2048_S128x768_1_1_0_0_n_n.lhsIdx_val_of_single rfl j q
/-- The right operand's row is the result's column. -/
theorem in_rhs_0 (j : S128x768.Idx) (q : dot_S128x2048_S768x2048_S128x768_1_1_0_0_n_n.contr.Idx) :
    (dot_S128x2048_S768x2048_S128x768_1_1_0_0_n_n.rhsIdx j q 0).val = (j 1).val := by
  unfold DotDims.rhsIdx
  rw [dif_neg (show ¬(0 : Fin S768x2048.rank) ∈ dot_S128x2048_S768x2048_S128x768_1_1_0_0_n_n.rhsBatch by decide), dif_pos (show (0 : Fin S768x2048.rank) ∈ dot_S128x2048_S768x2048_S128x768_1_1_0_0_n_n.rhsNonContracting by decide)]
  rfl
/-- Its column is the contraction position. -/
theorem in_rhs_1 (j : S128x768.Idx) (q : dot_S128x2048_S768x2048_S128x768_1_1_0_0_n_n.contr.Idx) :
    (dot_S128x2048_S768x2048_S128x768_1_1_0_0_n_n.rhsIdx j q 1).val = (q ⟨0, by decide⟩).val :=
  dot_S128x2048_S768x2048_S128x768_1_1_0_0_n_n.rhsIdx_val_of_single rfl j q

/-- Activation tile × down-matrix rows over the intermediate axis: the same four facts. -/
theorem out_lhs_0 (j : S128x2048.Idx) (q : dot_S128x768_S2048x768_S128x2048_1_1_0_0_n_n.contr.Idx) :
    (dot_S128x768_S2048x768_S128x2048_1_1_0_0_n_n.lhsIdx j q 0).val = (j 0).val := by
  unfold DotDims.lhsIdx
  rw [dif_neg (show ¬(0 : Fin S128x768.rank) ∈ dot_S128x768_S2048x768_S128x2048_1_1_0_0_n_n.lhsBatch by decide), dif_pos (show (0 : Fin S128x768.rank) ∈ dot_S128x768_S2048x768_S128x2048_1_1_0_0_n_n.lhsNonContracting by decide)]
  rfl
theorem out_lhs_1 (j : S128x2048.Idx) (q : dot_S128x768_S2048x768_S128x2048_1_1_0_0_n_n.contr.Idx) :
    (dot_S128x768_S2048x768_S128x2048_1_1_0_0_n_n.lhsIdx j q 1).val = (q ⟨0, by decide⟩).val :=
  dot_S128x768_S2048x768_S128x2048_1_1_0_0_n_n.lhsIdx_val_of_single rfl j q
theorem out_rhs_0 (j : S128x2048.Idx) (q : dot_S128x768_S2048x768_S128x2048_1_1_0_0_n_n.contr.Idx) :
    (dot_S128x768_S2048x768_S128x2048_1_1_0_0_n_n.rhsIdx j q 0).val = (j 1).val := by
  unfold DotDims.rhsIdx
  rw [dif_neg (show ¬(0 : Fin S2048x768.rank) ∈ dot_S128x768_S2048x768_S128x2048_1_1_0_0_n_n.rhsBatch by decide), dif_pos (show (0 : Fin S2048x768.rank) ∈ dot_S128x768_S2048x768_S128x2048_1_1_0_0_n_n.rhsNonContracting by decide)]
  rfl
theorem out_rhs_1 (j : S128x2048.Idx) (q : dot_S128x768_S2048x768_S128x2048_1_1_0_0_n_n.contr.Idx) :
    (dot_S128x768_S2048x768_S128x2048_1_1_0_0_n_n.rhsIdx j q 1).val = (q ⟨0, by decide⟩).val :=
  dot_S128x768_S2048x768_S128x2048_1_1_0_0_n_n.rhsIdx_val_of_single rfl j q

/-! ## The two contractions as plain sums -/

/-- A tile of rows against matrix rows, into zero: entry (p, i) is the sum over the hidden axis of row p times row i. -/
theorem in_contract (a : FVec Ideal S128x2048 .bf16) (b : FVec Ideal S768x2048 .bf16) (p : Fin 128) (i : Fin 768) :
    matmul dot_S128x2048_S768x2048_S128x768_1_1_0_0_n_n none a b (constant S128x768 .f32 0x00000000#32) (ix2 p i)
      = ∑ h : Fin 2048, a (ix2 p h) * b (ix2 i h) := by
  refine (Ideal.matmul_constant_zero_apply dot_S128x2048_S768x2048_S128x768_1_1_0_0_n_n none a b (ix2 p i)).trans ?_
  rw [← Equiv.sum_comp (contrEquiv1 dot_S128x2048_S768x2048_S128x768_1_1_0_0_n_n 2048 rfl rfl).symm]
  refine Finset.sum_congr rfl fun k _ => ?_
  have hk := contrEquiv1_symm_val dot_S128x2048_S768x2048_S128x768_1_1_0_0_n_n 2048 rfl rfl k
  have el : dot_S128x2048_S768x2048_S128x768_1_1_0_0_n_n.lhsIdx (ix2 p i) ((contrEquiv1 dot_S128x2048_S768x2048_S128x768_1_1_0_0_n_n 2048 rfl rfl).symm k) = ix2 p k := funext fun c => Fin.ext (by
    match c with
    | ⟨0, _⟩ => exact in_lhs_0 _ _
    | ⟨1, _⟩ => exact (in_lhs_1 _ _).trans hk)
  have er : dot_S128x2048_S768x2048_S128x768_1_1_0_0_n_n.rhsIdx (ix2 p i) ((contrEquiv1 dot_S128x2048_S768x2048_S128x768_1_1_0_0_n_n 2048 rfl rfl).symm k) = ix2 i k := funext fun c => Fin.ext (by
    match c with
    | ⟨0, _⟩ => exact in_rhs_0 _ _
    | ⟨1, _⟩ => exact (in_rhs_1 _ _).trans hk)
  rw [el, er]

/-- The activation tile against the down matrix's rows, into zero: entry (p, q) is the sum over the intermediate axis. -/
theorem out_contract (a : FVec Ideal S128x768 .bf16) (b : FVec Ideal S2048x768 .bf16) (p : Fin 128) (q : Fin 2048) :
    matmul dot_S128x768_S2048x768_S128x2048_1_1_0_0_n_n none a b (constant S128x2048 .f32 0x00000000#32) (ix2 p q)
      = ∑ i : Fin 768, a (ix2 p i) * b (ix2 q i) := by
  refine (Ideal.matmul_constant_zero_apply dot_S128x768_S2048x768_S128x2048_1_1_0_0_n_n none a b (ix2 p q)).trans ?_
  rw [← Equiv.sum_comp (contrEquiv1 dot_S128x768_S2048x768_S128x2048_1_1_0_0_n_n 768 rfl rfl).symm]
  refine Finset.sum_congr rfl fun k _ => ?_
  have hk := contrEquiv1_symm_val dot_S128x768_S2048x768_S128x2048_1_1_0_0_n_n 768 rfl rfl k
  have el : dot_S128x768_S2048x768_S128x2048_1_1_0_0_n_n.lhsIdx (ix2 p q) ((contrEquiv1 dot_S128x768_S2048x768_S128x2048_1_1_0_0_n_n 768 rfl rfl).symm k) = ix2 p k := funext fun c => Fin.ext (by
    match c with
    | ⟨0, _⟩ => exact out_lhs_0 _ _
    | ⟨1, _⟩ => exact (out_lhs_1 _ _).trans hk)
  have er : dot_S128x768_S2048x768_S128x2048_1_1_0_0_n_n.rhsIdx (ix2 p q) ((contrEquiv1 dot_S128x768_S2048x768_S128x2048_1_1_0_0_n_n 768 rfl rfl).symm k) = ix2 q k := funext fun c => Fin.ext (by
    match c with
    | ⟨0, _⟩ => exact out_rhs_0 _ _
    | ⟨1, _⟩ => exact (out_rhs_1 _ _).trans hk)
  rw [el, er]

/-! ## The stored tile -/

/-- The gate (or up) product of the loaded token tile with a loaded matrix block. -/
abbrev tileProj (x0 : Vec Ideal S1x128x2048 .f32) (w : Vec Ideal S1x768x2048 .f32) : FVec Ideal S128x768 .f32 :=
  matmul dot_S128x2048_S768x2048_S128x768_1_1_0_0_n_n none
    (truncf .bf16 (shapeCast S128x2048 x0 shapeCasts_S1x128x2048_S128x2048) bitsLt_bf16_f32)
    (truncf .bf16 (shapeCast S768x2048 w shapeCasts_S1x768x2048_S768x2048) bitsLt_bf16_f32)
    (constant S128x768 .f32 0x00000000#32)

/-- Entry (p, i) of that product: row p of the token tile against row i of the matrix block. -/
theorem tileProj_apply (x0 : Vec Ideal S1x128x2048 .f32) (w : Vec Ideal S1x768x2048 .f32) (p : Fin 128) (i : Fin 768) :
    tileProj x0 w (ix2 p i) = ∑ h : Fin 2048, x0 (ix3 (0 : Fin 1) p h) * w (ix3 (0 : Fin 1) i h) := by
  refine (in_contract _ _ p i).trans ?_
  refine Finset.sum_congr rfl fun h _ => ?_
  rw [truncf_apply, truncf_apply, shapeCast_1ab_ab_apply, shapeCast_1ab_ab_apply]

/-- THE STORED TILE at (p, q), from the four loaded blocks. -/
theorem tile_apply (x0 : Vec Ideal S1x128x2048 .f32) (x1 x2 : Vec Ideal S1x768x2048 .f32) (x3 : Vec Ideal S1x2048x768 .f32)
    (u : Fin 1) (p : Fin 128) (q : Fin 2048) :
    k0_pay1 (F := Ideal) x0 x1 x2 x3 (ix3 u p q)
      = ∑ i : Fin 768,
          gated (∑ h : Fin 2048, x0 (ix3 (0 : Fin 1) p h) * x1 (ix3 (0 : Fin 1) i h))
                (∑ h : Fin 2048, x0 (ix3 (0 : Fin 1) p h) * x2 (ix3 (0 : Fin 1) i h))
            * x3 (ix3 (0 : Fin 1) q i) := by
  show shapeCast S1x128x2048
      (matmul dot_S128x768_S2048x768_S128x2048_1_1_0_0_n_n none
        (truncf .bf16 (mulf (mulf (tileProj x0 x1) (logistic (tileProj x0 x1))) (tileProj x0 x2)) bitsLt_bf16_f32)
        (truncf .bf16 (shapeCast S2048x768 x3 shapeCasts_S1x2048x768_S2048x768) bitsLt_bf16_f32)
        (constant S128x2048 .f32 0x00000000#32))
      shapeCasts_S128x2048_S1x128x2048 (ix3 u p q) = _
  rw [shapeCast_ab_1ab_apply]
  refine (out_contract _ _ p q).trans ?_
  refine Finset.sum_congr rfl fun i _ => ?_
  rw [truncf_apply, truncf_apply, shapeCast_1ab_ab_apply]
  show (tileProj x0 x1 (ix2 p i) * Ideal.logistic (tileProj x0 x1 (ix2 p i)) * tileProj x0 x2 (ix2 p i)) * x3 (ix3 (0 : Fin 1) q i) = _
  rw [tileProj_apply, tileProj_apply]
  rfl

end Cert.ExpertTile

end
-- ==== Proof.ExpertArray.lean ====
/-
  From tiles to the whole array.

  The grid has 32 × 4 points; point t works on expert t / 4 and on token rows (t % 4) · 128 … + 127 of that expert.  It
  reads that 128-row tile of the tokens and the expert's three matrices whole, and writes back the same 128-row tile of
  the output.  Each input block is therefore the argument array read at (expert, row or matrix row, column), the tile a
  point writes is the matching tile of `expertOut` of the argument arrays, and the 128 tiles cover the output array:
  after the region it IS `expertOut`.
-/
import proofs.«122027_j75892072120692_1_alg».proof.Proof.Gen.KernelIdeal.Frame
import proofs.«122027_j75892072120692_1_alg».proof.Proof.ExpertTile
import Idealize.ShloMosaic.Lib.Pipeline.Value

set_option maxRecDepth 16384

noncomputable section

namespace Cert.ExpertArray

open Idealize.ShloMosaic Idealize.ShloMosaic.TcCoe Idealize.SL.Sem Idealize.ShloMosaic.ValueIdx
open Idealize.ShloMosaic.Pipeline (Dat)
open Cert.KernelIdeal Cert.KernelIdeal.Gen Cert.SwiGLU

variable (m : (ℓ : Loc nD τ sig) → Buf (Elt Ideal) ℓ) (ρ : Dev nD → PrngReg)

theorem hz : (![0, 0, 0] : Fin 3 → Nat) = fun _ => 0 := funext fun a => by fin_cases a <;> rfl

/-! ## The argument arrays and the blocks, at their literal types -/

abbrev tokens (c : Dev nD) : Tokens := V m c main_arg0
abbrev gateW (c : Dev nD) : InProj := V m c main_arg1
abbrev upW (c : Dev nD) : InProj := V m c main_arg2
abbrev downW (c : Dev nD) : OutProj := V m c main_arg3

abbrev tokBlk (c : Dev nD) (t : Fin cfg0.N) : Vec Ideal S1x128x2048 .f32 := iblk m c 0 t
abbrev gateBlk (c : Dev nD) (t : Fin cfg0.N) : Vec Ideal S1x768x2048 .f32 := iblk m c 1 t
abbrev upBlk (c : Dev nD) (t : Fin cfg0.N) : Vec Ideal S1x768x2048 .f32 := iblk m c 2 t
abbrev downBlk (c : Dev nD) (t : Fin cfg0.N) : Vec Ideal S1x2048x768 .f32 := iblk m c 3 t

/-! ## The grid: which expert and which rows a point works on -/

theorem npoints : cfg0.N = 128 := N_0

/-- Point t's expert. -/
def expertOf (t : Fin cfg0.N) : Fin 32 := ⟨t.val / 4, by have := t.isLt; have := npoints; omega⟩
/-- Row p of point t's tile, as a row of the expert's 512. -/
def rowOf (t : Fin cfg0.N) (p : Fin 128) : Fin 512 := ⟨(t.val % 4) * 128 + p.val, by have := p.isLt; omega⟩

/-- The token window and the output window move together: block (t / 4, t % 4, 0). -/
theorem tile_index : ∀ t : Fin cfg0.N,
    win0_0.index t (0 : Fin 3) = t.val / 4 ∧ win0_0.index t (1 : Fin 3) = t.val % 4 ∧ win0_0.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

/-- The three matrix windows stay on the expert's block: (t / 4, 0, 0). -/
theorem matrix_index : ∀ t : Fin cfg0.N,
    win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-! ## Each input block is the argument array read at the point's expert and rows -/

theorem tokBlk_apply (c : Dev nD) (t : Fin cfg0.N) (u : Fin 1) (p : Fin 128) (h : Fin 2048) :
    tokBlk m c t (ix3 u p h) = tokens m c (ix3 (expertOf t) (rowOf t p) h) := by
  obtain ⟨e0, e1, e2, -⟩ := tile_index t
  show (V m c main_arg0 : Tokens) (((cfg0.win 0).blk t).view.emb (ix3 u p h)) = _
  refine congrArg (V m c main_arg0 : Tokens) (funext fun a => Fin.ext ?_)
  match a with
  | ⟨0, _⟩ => show win0_0.index t (0 : Fin 3) * 1 + 1 * u.val = t.val / 4; have := u.isLt; omega
  | ⟨1, _⟩ => show win0_0.index t (1 : Fin 3) * 128 + 1 * p.val = (t.val % 4) * 128 + p.val; omega
  | ⟨2, _⟩ => show win0_0.index t (2 : Fin 3) * 2048 + 1 * h.val = h.val; omega

theorem gateBlk_apply (c : Dev nD) (t : Fin cfg0.N) (u : Fin 1) (i : Fin 768) (h : Fin 2048) :
    gateBlk m c t (ix3 u i h) = gateW m c (ix3 (expertOf t) i h) := by
  obtain ⟨e0, e1, e2, -⟩ := matrix_index t
  show (V m c main_arg1 : InProj) (((cfg0.win 1).blk t).view.emb (ix3 u i h)) = _
  refine congrArg (V m c main_arg1 : InProj) (funext fun a => Fin.ext ?_)
  match a with
  | ⟨0, _⟩ => show win0_1.index t (0 : Fin 3) * 1 + 1 * u.val = t.val / 4; have := u.isLt; omega
  | ⟨1, _⟩ => show win0_1.index t (1 : Fin 3) * 768 + 1 * i.val = i.val; omega
  | ⟨2, _⟩ => show win0_1.index t (2 : Fin 3) * 2048 + 1 * h.val = h.val; omega

theorem upBlk_apply (c : Dev nD) (t : Fin cfg0.N) (u : Fin 1) (i : Fin 768) (h : Fin 2048) :
    upBlk m c t (ix3 u i h) = upW m c (ix3 (expertOf t) i h) := by
  obtain ⟨-, -, -, e0, e1, e2, -⟩ := matrix_index t
  show (V m c main_arg2 : InProj) (((cfg0.win 2).blk t).view.emb (ix3 u i h)) = _
  refine congrArg (V m c main_arg2 : InProj) (funext fun a => Fin.ext ?_)
  match a with
  | ⟨0, _⟩ => show win0_2.index t (0 : Fin 3) * 1 + 1 * u.val = t.val / 4; have := u.isLt; omega
  | ⟨1, _⟩ => show win0_2.index t (1 : Fin 3) * 768 + 1 * i.val = i.val; omega
  | ⟨2, _⟩ => show win0_2.index t (2 : Fin 3) * 2048 + 1 * h.val = h.val; omega

theorem downBlk_apply (c : Dev nD) (t : Fin cfg0.N) (u : Fin 1) (q : Fin 2048) (i : Fin 768) :
    downBlk m c t (ix3 u q i) = downW m c (ix3 (expertOf t) q i) := by
  obtain ⟨-, -, -, -, -, -, e0, e1, e2⟩ := matrix_index t
  show (V m c main_arg3 : OutProj) (((cfg0.win 3).blk t).view.emb (ix3 u q i)) = _
  refine congrArg (V m c main_arg3 : OutProj) (funext fun a => Fin.ext ?_)
  match a with
  | ⟨0, _⟩ => show win0_3.index t (0 : Fin 3) * 1 + 1 * u.val = t.val / 4; have := u.isLt; omega
  | ⟨1, _⟩ => show win0_3.index t (1 : Fin 3) * 2048 + 1 * q.val = q.val; omega
  | ⟨2, _⟩ => show win0_3.index t (2 : Fin 3) * 768 + 1 * i.val = i.val; omega

/-! ## The tile a point stores is the matching tile of the expert output -/

theorem tile_eq (c : Dev nD) (t : Fin cfg0.N) (u : Fin 1) (p : Fin 128) (q : Fin 2048) :
    k0_pay1 (F := Ideal) (tokBlk m c t) (gateBlk m c t) (upBlk m c t) (downBlk m c t) (ix3 u p q)
      = expertOut (tokens m c) (gateW m c) (upW m c) (downW m c) (ix3 (expertOf t) (rowOf t p) q) := by
  rw [Cert.ExpertTile.tile_apply]
  refine Finset.sum_congr rfl fun i _ => ?_
  rw [downBlk_apply]
  refine congrArg (· * downW m c (ix3 (expertOf t) q i)) ?_
  show gated _ _ = gated (proj _ _ _ _ _) (proj _ _ _ _ _)
  refine congrArg₂ gated (Finset.sum_congr rfl fun h _ => ?_) (Finset.sum_congr rfl fun h _ => ?_)
  · rw [tokBlk_apply, gateBlk_apply]
  · rw [tokBlk_apply, upBlk_apply]

/-- WHAT POINT t WRITES BACK is tile t of the expert output of the argument arrays as the region finds them. -/
theorem flushed_eq (c : Dev nD) (t : Fin cfg0.N) :
    (dats m 0 c).flushed 4 t
      = ((cfg0.win 4).blk t).view.read (Elt Ideal) (expertOut (tokens m c) (gateW m c) (upW m c) (downW m c)) := by
  obtain ⟨-, -, -, e0, e1, e2⟩ := tile_index t
  show (cfg0.win 4).cut (grid0.coords t) ((dats m 0 c).after 4 t) = _
  rw [after0_4]
  unfold out0_4
  rw [View.canon_unit_zero hz]
  simp only [View.ld_unit_zero (S := S1x128x2048) hz, View.ld_unit_zero (S := S1x768x2048) hz, View.ld_unit_zero (S := S1x2048x768) hz]
  funext j
  show k0_pay1 (F := Ideal) (tokBlk m c t) (gateBlk m c t) (upBlk m c t) (downBlk m c t) j
    = expertOut (tokens m c) (gateW m c) (upW m c) (downW m c) (((cfg0.win 4).blk t).view.emb j)
  have hj : (j : S1x128x2048.Idx) = ix3 (j 0) (j 1) (j 2) := eq_ix3 j
  have he : ((cfg0.win 4).blk t).view.emb j = ix3 (expertOf t) (rowOf t (j 1)) (j 2) := funext fun a => Fin.ext (by
    match a with
    | ⟨0, _⟩ => show win0_4.index t (0 : Fin 3) * 1 + 1 * (j 0).val = t.val / 4; have : (j 0).val < 1 := (j 0).isLt; omega
    | ⟨1, _⟩ => show win0_4.index t (1 : Fin 3) * 128 + 1 * (j 1).val = (t.val % 4) * 128 + (j 1).val; omega
    | ⟨2, _⟩ => show win0_4.index t (2 : Fin 3) * 2048 + 1 * (j 2).val = (j 2).val; omega)
  rw [he]
  exact (congrArg (k0_pay1 (F := Ideal) (tokBlk m c t) (gateBlk m c t) (upBlk m c t) (downBlk m c t)) hj).trans
    (tile_eq m c t (j 0) (j 1) (j 2))

/-! ## The tiles cover the array -/

/-- An index of the array is in point t's block iff each coordinate is in the block's range on its axis. -/
theorem mem_blk (t : Fin cfg0.N) (i : S32x512x2048.Idx) :
    i ∈ ((cfg0.win 4).blk t).view.set ↔ ∀ a : Fin 3, win0_4.index t a * S1x128x2048.size a ≤ (i a).val ∧ (i a).val < win0_4.index t a * S1x128x2048.size a + S1x128x2048.size a := by
  show i ∈ ((View.whole main_v0).slice (win0_4.rect t)).set ↔ _
  rw [View.set_slice_whole, Rect.mem_set_unit]
  exact Iff.rfl

/-- Element (e, r, q) of the output is in the tile of point 4 e + r / 128. -/
theorem covered (i : S32x512x2048.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 2048 := (i 2).isLt
  have hN := npoints
  obtain ⟨t, ht⟩ : ∃ t : Fin cfg0.N, t.val = (i 0).val * 4 + (i 1).val / 128 := ⟨⟨(i 0).val * 4 + (i 1).val / 128, by omega⟩, rfl⟩
  obtain ⟨-, -, -, e0, e1, e2⟩ := tile_index t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 2048 ≤ (i 2).val ∧ (i 2).val < win0_4.index t (2 : Fin 3) * 2048 + 2048; omega

/-- THE OUTPUT ARRAY after the region is the expert output of the argument arrays. -/
theorem region_out (c : Dev nD) :
    (dats m 0 c).arrAt 4 cfg0.N = expertOut (tokens m c) (gateW m c) (upW m c) (downW m c) :=
  (dats m 0 c).arrAt_eq_of_cover 4 _ (fun t _ => flushed_eq m c t) covered

end Cert.ExpertArray

end
-- ==== Proof.KernelRun.lean ====
/-
  The kernel program's run, read.

  @main launches the region and then reshapes its output array [32, 512, 2048] to [16384, 2048].  The region leaves the
  expert output in that array (`region_out`), so the result buffer ends at the reshape of `expertOut` of the four
  argument arrays as launched, and the arguments end unchanged.
-/
import proofs.«122027_j75892072120692_1_alg».proof.Proof.ExpertArray
import Idealize.ShloMosaic.Lib.StableHlo.Run

noncomputable section

namespace Cert.KernelRun

open Idealize.ShloMosaic Idealize.ShloMosaic.TcCoe Idealize.SL.Sem Idealize.ShloMosaic.StableHlo
open Cert.KernelIdeal Cert.KernelIdeal.Gen Cert.SwiGLU Cert.ExpertArray

variable (m : (ℓ : Loc nD τ sig) → Buf (Elt Ideal) ℓ) (ρ : Dev nD → PrngReg)

/-- The result as a function of the launch contents: the expert output, rows of all experts stacked. -/
abbrev result (c : Dev nD) : Buf (Elt Ideal) ((c.tc : Thread nD τ).loc main_v1) :=
  shapeCast S16384x2048
    (expertOut (m ((c.tc : Thread nD τ).loc main_arg0)) (m ((c.tc : Thread nD τ).loc main_arg1))
      (m ((c.tc : Thread nD τ).loc main_arg2)) (m ((c.tc : Thread nD τ).loc main_arg3)))
    shapeCasts_S32x512x2048_S16384x2048

/-- The line after the region reshapes the region's output array. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = expertOut (tokens m c) (gateW m c) (upW m c) (downW m c) :=
    (Pipeline.withArrays_arr spec0 launch0.win.arr_inj c _ _ 4).trans (region_out m c)
  rw [e]
  rfl

/-- THE RUN of the idealized kernel program: every weakly fair execution of @main terminates with the result buffer at
    `result` and the four arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v1 (Pipeline.mem_restRefs_of main_v1 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).1 3).trans (((dats m 0 c).arrAt_in 3 rfl _).trans ((A_eq m c 3).trans (V_main_arg3 m c)))⟩)
    (run_main m ρ)

end Cert.KernelRun

end
-- ==== Proof.lean ====
/-
  A mixture-of-experts feed-forward: for each of 32 experts, 512 token rows x of width 2048 go through
      out = (silu (x · gateᵀ) ⊙ (x · upᵀ)) · downᵀ ,      silu g = g · logistic g,
  with gate, up of shape [768, 2048] and down of shape [2048, 768]; the rows of all experts are stacked into [16384, 2048].

  The kernel computes it tile by tile (128 token rows of one expert per grid point, the expert's matrices whole), casting
  operands to bf16 before each of its three matrix products; the reference is three batched contractions on the host with
  the sigmoid written 1 / (1 + exp (-g)).  On the extended reals a format change is the identity, a product into a zero
  accumulator and a host contraction are the same finite sum, and `logistic g` is `1 / (1 + exp (-g))` by definition.
  So both programs end with the result at ONE function of the arguments, `Cert.SwiGLU.expertOut` reshaped — term for
  term, with no sum rearranged: the inputs' finiteness is not used.

  The frames of the two kernel programs are the generated class-A frames; the reference's frame is its generated run
  with the result dropped; the idealization ledger is empty.
-/
import proofs.«122027_j75892072120692_1_alg».proof.Defs
import proofs.«122027_j75892072120692_1_alg».proof.Proof.Gen.Kernel
import proofs.«122027_j75892072120692_1_alg».proof.Proof.Gen.Kernel.Skeleton
import proofs.«122027_j75892072120692_1_alg».proof.Proof.Gen.Kernel.Launch
import proofs.«122027_j75892072120692_1_alg».proof.Proof.Gen.Kernel.Points
import proofs.«122027_j75892072120692_1_alg».proof.Proof.Gen.Kernel.Frame
import proofs.«122027_j75892072120692_1_alg».proof.Proof.Gen.KernelIdeal
import proofs.«122027_j75892072120692_1_alg».proof.Proof.Gen.KernelIdeal.Skeleton
import proofs.«122027_j75892072120692_1_alg».proof.Proof.Gen.KernelIdeal.Launch
import proofs.«122027_j75892072120692_1_alg».proof.Proof.Gen.KernelIdeal.Points
import proofs.«122027_j75892072120692_1_alg».proof.Proof.Gen.KernelIdeal.Frame
import proofs.«122027_j75892072120692_1_alg».proof.Proof.Gen.ReferenceIdeal
import proofs.«122027_j75892072120692_1_alg».proof.Proof.Gen.ReferenceIdeal.Run
import proofs.«122027_j75892072120692_1_alg».proof.Proof.Gen.ReferenceIdeal.Read
import proofs.«122027_j75892072120692_1_alg».proof.Proof.Gen.Pre_finite_inputs
import proofs.«122027_j75892072120692_1_alg».proof.Proof.RefExperts
import proofs.«122027_j75892072120692_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments, the kernel program ends with its result at the reshaped expert output
    of its arguments (`Cert.KernelRun.run`), and the reference's result — the reshape of its last contraction — is the
    reshape of the same function (`Cert.RefExperts.stage_eq`) of the same arrays. -/
theorem algebraic : Cert.algebraic_KernelIdeal_ReferenceIdeal := by
  intro m ρ m' ρ' _ hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq]
  unfold Cert.ReferenceIdeal.Read.val_main_v5
  rw [Cert.RefExperts.stage_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
